-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x6x256x256 : Shape := ⟨5, ![8, 16, 6, 256, 256]⟩
abbrev S_ : Shape := ⟨0, ![]⟩

class Facts : Prop where
  bcast_S_S8x16x6x256x256 : S_.BroadcastsInDim S8x16x6x256x256 (![] : Fin 0 → Fin S8x16x6x256x256.rank)
  reducesTo_S8x16x6x256x256_S_d0_1_2_3_4 : S8x16x6x256x256.ReducesTo [0, 1, 2, 3, 4] S_
  h_S_ : 0 < S_.numel

variable [Facts]

def fn {F : FTy → Type} [FloatOps F] (main_arg0 : FVec F S8x16x6x256x256 .f32) (main_arg1 : FVec F S8x16x6x256x256 .f32) : IVec S_ 1 :=
  let main_v0 : FVec F S8x16x6x256x256 .f32 := Host.absf main_arg0
  let main_cst : FVec F S_ .f32 := constant S_ .f32 0x7F800000#32
  let main_v1 : FVec F S8x16x6x256x256 .f32 := broadcastInDim S8x16x6x256x256 ![] bcast_S_S8x16x6x256x256 main_cst
  let main_v2 : IVec S8x16x6x256x256 1 := cmpf .olt main_v0 main_v1
  let main_c : IVec S_ 1 := constantI S_ 1 1#1
  let main_v3 : IVec S_ 1 := (fun x v => Host.reduce IntOp.andi x v reducesTo_S8x16x6x256x256_S_d0_1_2_3_4 h_S_) main_v2 main_c
  let main_v4 : FVec F S8x16x6x256x256 .f32 := Host.absf main_arg1
  let main_cst_0 : FVec F S_ .f32 := constant S_ .f32 0x7F800000#32
  let main_v5 : FVec F S8x16x6x256x256 .f32 := broadcastInDim S8x16x6x256x256 ![] bcast_S_S8x16x6x256x256 main_cst_0
  let main_v6 : IVec S8x16x6x256x256 1 := cmpf .olt main_v4 main_v5
  let main_c_1 : IVec S_ 1 := constantI S_ 1 1#1
  let main_v7 : IVec S_ 1 := (fun x v => Host.reduce IntOp.andi x v reducesTo_S8x16x6x256x256_S_d0_1_2_3_4 h_S_) main_v6 main_c_1
  let main_v8 : IVec S_ 1 := andi main_v3 main_v7
  main_v8
-- ==== Kernel.lean ====
abbrev S8x16x6x256x256 : Shape := ⟨5, ![8, 16, 6, 256, 256]⟩
abbrev S768x65536 : Shape := ⟨2, ![768, 65536]⟩
abbrev S768x128 : Shape := ⟨2, ![768, 128]⟩
abbrev S16x65536 : Shape := ⟨2, ![16, 65536]⟩
abbrev S16x128 : Shape := ⟨2, ![16, 128]⟩
abbrev S16 : Shape := ⟨1, ![16]⟩
abbrev S16x1 : Shape := ⟨2, ![16, 1]⟩
abbrev S768x1 : Shape := ⟨2, ![768, 1]⟩
abbrev S768 : Shape := ⟨1, ![768]⟩
abbrev S_ : Shape := ⟨0, ![]⟩

abbrev nBuf : Space → Nat
  | .hbm => 65
  | .vmem => 14
  | .smem => 0
  | _ => 0

abbrev bufTy : (tb : Table) → Fin (tcTables nBuf tb) → BufTy
  | .hbm, ⟨0, _⟩ => ⟨S8x16x6x256x256, .f32⟩
  | .hbm, ⟨1, _⟩ => ⟨S8x16x6x256x256, .f32⟩
  | .hbm, ⟨2, _⟩ => ⟨S768x65536, .f32⟩
  | .hbm, ⟨3, _⟩ => ⟨S768x65536, .f32⟩
  | .hbm, ⟨4, _⟩ => ⟨S768x128, .f32⟩
  | .hbm, ⟨5, _⟩ => ⟨S768x128, .f32⟩
  | .hbm, ⟨6, _⟩ => ⟨S768x128, .f32⟩
  | .hbm, ⟨7, _⟩ => ⟨S768x128, .f32⟩
  | .hbm, ⟨8, _⟩ => ⟨S768x128, .f32⟩
  | .hbm, ⟨9, _⟩ => ⟨S768x1, .f32⟩
  | .hbm, ⟨10, _⟩ => ⟨S768, .f32⟩
  | .hbm, ⟨11, _⟩ => ⟨S768x1, .f32⟩
  | .hbm, ⟨12, _⟩ => ⟨S768, .f32⟩
  | .hbm, ⟨13, _⟩ => ⟨S768x1, .f32⟩
  | .hbm, ⟨14, _⟩ => ⟨S768, .f32⟩
  | .hbm, ⟨15, _⟩ => ⟨S768x1, .f32⟩
  | .hbm, ⟨16, _⟩ => ⟨S768, .f32⟩
  | .hbm, ⟨17, _⟩ => ⟨S768x1, .f32⟩
  | .hbm, ⟨18, _⟩ => ⟨S768, .f32⟩
  | .hbm, ⟨19, _⟩ => ⟨S768, .f32⟩
  | .hbm, ⟨20, _⟩ => ⟨S_, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S768, .f32⟩
  | .hbm, ⟨28, _⟩ => ⟨S_, .f32⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S_, .f32⟩
  | .hbm, ⟨33, _⟩ => ⟨S768, .f32⟩
  | .hbm, ⟨34, _⟩ => ⟨S768, .f32⟩
  | .hbm, ⟨35, _⟩ => ⟨S768, .f32⟩
  | .hbm, ⟨36, _⟩ => ⟨S_, .f32⟩
  | .hbm, ⟨37, _⟩ => ⟨S768, .f32⟩
  | .hbm, ⟨38, _⟩ => ⟨S768, .f32⟩
  | .hbm, ⟨39, _⟩ => ⟨S768, .f32⟩
  | .hbm, ⟨40, _⟩ => ⟨S768, .f32⟩
  | .hbm, ⟨41, _⟩ => ⟨S768, .f32⟩
  | .hbm, ⟨42, _⟩ => ⟨S_, .f32⟩
  | .hbm, ⟨43, _⟩ => ⟨S768, .f32⟩
  | .hbm, ⟨44, _⟩ => ⟨S768, .f32⟩
  | .hbm, ⟨45, _⟩ => ⟨S768, .f32⟩
  | .hbm, ⟨46, _⟩ => ⟨S_, .f32⟩
  | .hbm, ⟨47, _⟩ => ⟨S768, .f32⟩
  | .hbm, ⟨48, _⟩ => ⟨S768, .f32⟩
  | .hbm, ⟨49, _⟩ => ⟨S768, .f32⟩
  | .hbm, ⟨50, _⟩ => ⟨S768, .f32⟩
  | .hbm, ⟨51, _⟩ => ⟨S_, .f32⟩
  | .hbm, ⟨52, _⟩ => ⟨S768, .f32⟩
  | .hbm, ⟨53, _⟩ => ⟨S768, .f32⟩
  | .hbm, ⟨54, _⟩ => ⟨S768, .f32⟩
  | .hbm, ⟨55, _⟩ => ⟨S768, .f32⟩
  | .hbm, ⟨56, _⟩ => ⟨S768, .f32⟩
  | .hbm, ⟨57, _⟩ => ⟨S768, .f32⟩
  | .hbm, ⟨58, _⟩ => ⟨S_, .f32⟩
  | .hbm, ⟨59, _⟩ => ⟨S768, .f32⟩
  | .hbm, ⟨60, _⟩ => ⟨S768, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S16x65536, .f32⟩
  | .local _ .vmem, ⟨1, _⟩ => ⟨S16x65536, .f32⟩
  | .local _ .vmem, ⟨2, _⟩ => ⟨S16x65536, .f32⟩
  | .local _ .vmem, ⟨3, _⟩ => ⟨S16x65536, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S8x16x6x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x16x6x256x256_S768x65536 : S8x16x6x256x256.ShapeCasts S768x65536
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  reduces_S16x65536_S16 : S16x65536.Reduces [1] S16
  shapeCasts_S16_S16x1 : S16.ShapeCasts S16x1
  shapeCasts_S16x1_S16x1 : S16x1.ShapeCasts S16x1
  broadcasts_S16x1_S16x128 : S16x1.Broadcasts S16x128
  inb_S16x128_S16x128_0_0 : ∀ a, (![0, 0] : Fin 2 → Nat) a + S16x128.size a ≤ S16x128.size a
  h_S16x128 : 0 < S16x128.numel
  slices_S768x128_S768x1_0_0 : S768x128.Slices ![0, 0] S768x1
  shapeCasts_S768x1_S768 : S768x1.ShapeCasts S768
  bcast_S_S768 : S_.BroadcastsInDim S768 (![] : Fin 0 → Fin S768.rank)
  reducesTo_S768_S_d0 : S768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S768x65536.size a
  hwx0_0 : ∀ i : grid0.Coords, EltTy.bits .f32 = 32 ∨ (Rect.block (s := S768x65536) S16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S768x65536.size a
  hwx0_1 : ∀ i : grid0.Coords, EltTy.bits .f32 = 32 ∨ (Rect.block (s := S768x65536) S16x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S768x128.size a
  hwx0_2 : ∀ i : grid0.Coords, EltTy.bits .f32 = 32 ∨ (Rect.block (s := S768x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S768x128.size a
  hwx0_3 : ∀ i : grid0.Coords, EltTy.bits .f32 = 32 ∨ (Rect.block (s := S768x128) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S768x128.size a
  hwx0_4 : ∀ i : grid0.Coords, EltTy.bits .f32 = 32 ∨ (Rect.block (s := S768x128) S16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S768x128.size a
  hwx0_5 : ∀ i : grid0.Coords, EltTy.bits .f32 = 32 ∨ (Rect.block (s := S768x128) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S768x128.size a
  hwx0_6 : ∀ i : grid0.Coords, EltTy.bits .f32 = 32 ∨ (Rect.block (s := S768x128) S16x128.size (cc0_transform_6 i) (hinb0_6 i)).WholeWords (EltTy.packing .f32)

variable [Facts₀]

abbrev win0_0 : Pipeline.Window sig grid0 :=
  Pipeline.Window.ofSpec (Memref.whole main_v0) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S16x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S16x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16x6x256x256 : Shape := ⟨5, ![8, 16, 6, 256, 256]⟩
abbrev S768x65536 : Shape := ⟨2, ![768, 65536]⟩
abbrev S_ : Shape := ⟨0, ![]⟩
abbrev S768 : Shape := ⟨1, ![768]⟩
abbrev S768x1 : Shape := ⟨2, ![768, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x16x6x256x256, .f32⟩
  | .hbm, ⟨1, _⟩ => ⟨S8x16x6x256x256, .f32⟩
  | .hbm, ⟨2, _⟩ => ⟨S768x65536, .f32⟩
  | .hbm, ⟨3, _⟩ => ⟨S768x65536, .f32⟩
  | .hbm, ⟨4, _⟩ => ⟨S_, .i32⟩
  | .hbm, ⟨5, _⟩ => ⟨S_, .f32⟩
  | .hbm, ⟨6, _⟩ => ⟨S768, .f32⟩
  | .hbm, ⟨7, _⟩ => ⟨S768x1, .f32⟩
  | .hbm, ⟨8, _⟩ => ⟨S_, .f32⟩
  | .hbm, ⟨9, _⟩ => ⟨S768x1, .f32⟩
  | .hbm, ⟨10, _⟩ => ⟨S768x1, .f32⟩
  | .hbm, ⟨11, _⟩ => ⟨S768x65536, .f32⟩
  | .hbm, ⟨12, _⟩ => ⟨S768x65536, .f32⟩
  | .hbm, ⟨13, _⟩ => ⟨S768x65536, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S_, .i32⟩
  | .hbm, ⟨28, _⟩ => ⟨S_, .f32⟩
  | .hbm, ⟨29, _⟩ => ⟨S768, .f32⟩
  | .hbm, ⟨30, _⟩ => ⟨S768x1, .f32⟩
  | .hbm, ⟨31, _⟩ => ⟨S_, .f32⟩
  | .hbm, ⟨32, _⟩ => ⟨S768x1, .f32⟩
  | .hbm, ⟨33, _⟩ => ⟨S768x1, .f32⟩
  | .hbm, ⟨34, _⟩ => ⟨S768x65536, .f32⟩
  | .hbm, ⟨35, _⟩ => ⟨S768x65536, .f32⟩
  | .hbm, ⟨36, _⟩ => ⟨S768x65536, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S768, .f32⟩
  | .hbm, ⟨42, _⟩ => ⟨S768, .f32⟩
  | .hbm, ⟨43, _⟩ => ⟨S768, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S768, .f32⟩
  | .hbm, ⟨49, _⟩ => ⟨S768, .f32⟩
  | .hbm, ⟨50, _⟩ => ⟨S768x65536, .f32⟩
  | .hbm, ⟨51, _⟩ => ⟨S_, .i32⟩
  | .hbm, ⟨52, _⟩ => ⟨S_, .f32⟩
  | .hbm, ⟨53, _⟩ => ⟨S768, .f32⟩
  | .hbm, ⟨54, _⟩ => ⟨S768x1, .f32⟩
  | .hbm, ⟨55, _⟩ => ⟨S_, .f32⟩
  | .hbm, ⟨56, _⟩ => ⟨S768x1, .f32⟩
  | .hbm, ⟨57, _⟩ => ⟨S768x1, .f32⟩
  | .hbm, ⟨58, _⟩ => ⟨S768x65536, .f32⟩
  | .hbm, ⟨59, _⟩ => ⟨S768x65536, .f32⟩
  | .hbm, ⟨60, _⟩ => ⟨S768x65536, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S768, .f32⟩
  | .hbm, ⟨73, _⟩ => ⟨S768, .f32⟩
  | .hbm, ⟨74, _⟩ => ⟨S768, .f32⟩
  | .hbm, ⟨75, _⟩ => ⟨S768, .f32⟩
  | .hbm, ⟨76, _⟩ => ⟨S_, .f32⟩
  | .hbm, ⟨77, _⟩ => ⟨S768, .f32⟩
  | .hbm, ⟨78, _⟩ => ⟨S768, .f32⟩
  | .hbm, ⟨79, _⟩ => ⟨S768, .f32⟩
  | .hbm, ⟨80, _⟩ => ⟨S768, .f32⟩
  | .hbm, ⟨81, _⟩ => ⟨S768, .f32⟩
  | .hbm, ⟨82, _⟩ => ⟨S768, .f32⟩
  | .hbm, ⟨83, _⟩ => ⟨S_, .f32⟩
  | .hbm, ⟨84, _⟩ => ⟨S768, .f32⟩
  | .hbm, ⟨85, _⟩ => ⟨S768, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8x16x6x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_cst_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_3 : Ref sig .tc := ⟨.hbm, 21, rfl⟩
abbrev main_call0_v12 : Ref sig .tc := ⟨.hbm, 22, rfl⟩
abbrev main_call0_cst_4 : Ref sig .tc := ⟨.hbm, 23, rfl⟩
abbrev main_call0_call0_v0 : Ref sig .tc := ⟨.hbm, 24, rfl⟩
abbrev main_call0_call0_v1 : Ref sig .tc := ⟨.hbm, 25, rfl⟩
abbrev main_v2 : Ref sig .tc := ⟨.hbm, 26, rfl⟩
abbrev main_c_0 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_cst_3 : Ref sig .tc := ⟨.hbm, 44, rfl⟩
abbrev main_call1_v12 : Ref sig .tc := ⟨.hbm, 45, rfl⟩
abbrev main_call1_cst_4 : Ref sig .tc := ⟨.hbm, 46, rfl⟩
abbrev main_call1_call0_v0 : Ref sig .tc := ⟨.hbm, 47, rfl⟩
abbrev main_call1_call0_v1 : Ref sig .tc := ⟨.hbm, 48, rfl⟩
abbrev main_v3 : Ref sig .tc := ⟨.hbm, 49, rfl⟩
abbrev main_v4 : Ref sig .tc := ⟨.hbm, 50, rfl⟩
abbrev main_c_1 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_cst : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_cst_2 : Ref sig .tc := ⟨.hbm, 83, rfl⟩
abbrev main_v14 : Ref sig .tc := ⟨.hbm, 84, rfl⟩
abbrev main_v15 : Ref sig .tc := ⟨.hbm, 85, rfl⟩
abbrev main_cst_3 : Ref sig .tc := ⟨.hbm, 86, rfl⟩
abbrev main_v16 : Ref sig .tc := ⟨.hbm, 87, rfl⟩
abbrev main_cst_4 : Ref sig .tc := ⟨.hbm, 88, rfl⟩
abbrev main_v17 : Ref sig .tc := ⟨.hbm, 89, rfl⟩

abbrev nD : Nat := 1
abbrev τ : Topo := Topo.v7x

variable {F : FTy → Type} [FloatOps F]

class Facts₀ : Prop where
  shapeCasts_S8x16x6x256x256_S768x65536 : S8x16x6x256x256.ShapeCasts S768x65536
  reducesTo_S768x65536_S768_d1 : S768x65536.ReducesTo [1] S768
  h_S_ : 0 < S_.numel
  bcast_S768_S768x1_0 : S768.BroadcastsInDim S768x1 (![0] : Fin 1 → Fin S768x1.rank)
  bcast_S_S768x1 : S_.BroadcastsInDim S768x1 (![] : Fin 0 → Fin S768x1.rank)
  bcast_S768x1_S768x65536_0_1 : S768x1.BroadcastsInDim S768x65536 (![0, 1] : Fin 2 → Fin S768x65536.rank)
  bcast_S_S768 : S_.BroadcastsInDim S768 (![] : Fin 0 → Fin S768.rank)
  reducesTo_S768_S_d0 : S768.ReducesTo [0] S_

variable [Facts₀]

class Facts : Prop extends Facts₀ where

variable [Facts]
-- ==== Proof.Spec.lean ====
/-
  The two programs as functions of the flattened inputs.

  Both flatten each input to 768 rows of 65536 entries and end in the same expression of three per-row numbers — the
  unbiased variances of x, of y and of x + y —: the mean over the rows of 1 − ½·(v(x+y) − v(x) − v(y)) / √|v(x)·v(y)|.
  They differ in how a row's variance is taken. One subtracts the row's mean from every entry, sums the squares and
  divides by n − 1 (written 65536 − 1, guarded by the test n − 1 > 0). The other takes five row sums — of x, x², y, y²
  and x·y — and uses Σ(u − Σu/n)² = Σu² − (Σu)²/n, with Σ(x+y) = Σx + Σy and Σ(x+y)² = Σx² + 2Σxy + Σy².
  This file names the pieces: the shared closing expression, the centred variance, and the variance from sums.
-/
import Idealize.ShloMosaic.PureOps
import Idealize.ShloMosaic.PureOps.Ideal
import Idealize.ShloMosaic.Lib.ValueIdx

noncomputable section

open scoped BigOperators

namespace Cert.VarSpec

open Idealize.ShloMosaic Idealize.ShloMosaic.ValueIdx

variable {F : FTy → Type} [FloatOps F]

abbrev A5 : Shape := ⟨5, ![8, 16, 6, 256, 256]⟩
abbrev A2 : Shape := ⟨2, ![768, 65536]⟩
abbrev A2l : Shape := ⟨2, ![768, 128]⟩
abbrev A1c : Shape := ⟨2, ![768, 1]⟩
abbrev A1 : Shape := ⟨1, ![768]⟩
abbrev A0 : Shape := ⟨0, ![]⟩

/-- The closing expression both programs share, of the three per-row variances: the sum over the 768 rows of
    1 − (½ · ((vxy − vx) − vy)) / √|vx · vy|, from zero, divided by 768. -/
def tail (hb : A0.BroadcastsInDim A1 (![] : Fin 0 → Fin A1.rank)) (hr : A1.ReducesTo [0] A0) (h0 : 0 < A0.numel)
    (vx vy vxy : FVec F A1 .f32) : FVec F A0 .f32 :=
  Host.divf
    (Host.reduceAdd
      (subf (broadcastInDim A1 ![] hb (constant (F := F) A0 .f32 0x3F800000#32))
        (Host.divf (mulf (broadcastInDim A1 ![] hb (constant (F := F) A0 .f32 0x3F000000#32)) (subf (subf vxy vx) vy))
          (Host.sqrt (Host.absf (mulf vx vy)))))
      (constant (F := F) A0 .f32 0x00000000#32) hr h0)
    (constant (F := F) A0 .f32 0x44400000#32)

/-- A row's variance from its sum `s` and its sum of squares `q`: (q − s·s / 65536) / 65535. -/
def varOfSums (hb : A0.BroadcastsInDim A1 (![] : Fin 0 → Fin A1.rank)) (s q : FVec F A1 .f32) : FVec F A1 .f32 :=
  Host.divf (subf q (Host.divf (mulf s s) (broadcastInDim A1 ![] hb (constant (F := F) A0 .f32 0x47800000#32))))
    (broadcastInDim A1 ![] hb (constant (F := F) A0 .f32 0x477FFF00#32))

/-- The sum of squares of x + y from the five sums: (Σx² + 2·Σxy) + Σy². -/
def sqOfSums (hb : A0.BroadcastsInDim A1 (![] : Fin 0 → Fin A1.rank)) (sxx syy sxy : FVec F A1 .f32) : FVec F A1 .f32 :=
  addf (addf sxx (mulf (broadcastInDim A1 ![] hb (constant (F := F) A0 .f32 0x40000000#32)) sxy)) syy

/-- The centred variance of every row of `x`: the row's mean is its sum (from zero) over 65536; the squared distances
    to it are summed (from zero) and divided by 65536 − 1, the 1 an integer made a float; the quotient is kept where
    that divisor is positive (it always is) and is the not-a-number word elsewhere. -/
def varCentred (hred : A2.ReducesTo [1] A1) (h0 : 0 < A0.numel)
    (hb1c : A1.BroadcastsInDim A1c (![0] : Fin 1 → Fin A1c.rank))
    (hb0c : A0.BroadcastsInDim A1c (![] : Fin 0 → Fin A1c.rank))
    (hbc2 : A1c.BroadcastsInDim A2 (![0, 1] : Fin 2 → Fin A2.rank))
    (hb : A0.BroadcastsInDim A1 (![] : Fin 0 → Fin A1.rank))
    (x : FVec F A2 .f32) : FVec F A1 .f32 :=
  select
    (broadcastInDim A1 ![] hb
      (cmpf .ogt (subf (constant (F := F) A0 .f32 0x47800000#32) (sitofp (F := F) .f32 (constantI A0 32 1#32))) (constant (F := F) A0 .f32 0x00000000#32)))
    (Host.divf
      (Host.reduceAdd
        (mulf
          (subf x (broadcastInDim A2 ![0, 1] hbc2
            (Host.divf (broadcastInDim A1c ![0] hb1c (Host.reduceAdd x (constant (F := F) A0 .f32 0x00000000#32) hred h0))
              (broadcastInDim A1c ![] hb0c (constant (F := F) A0 .f32 0x47800000#32)))))
          (subf x (broadcastInDim A2 ![0, 1] hbc2
            (Host.divf (broadcastInDim A1c ![0] hb1c (Host.reduceAdd x (constant (F := F) A0 .f32 0x00000000#32) hred h0))
              (broadcastInDim A1c ![] hb0c (constant (F := F) A0 .f32 0x47800000#32))))))
        (constant (F := F) A0 .f32 0x00000000#32) hred h0)
      (broadcastInDim A1 ![] hb (subf (constant (F := F) A0 .f32 0x47800000#32) (sitofp (F := F) .f32 (constantI A0 32 1#32)))))
    (broadcastInDim A1 ![] hb (id (constant (F := F) A0 .f32 0x7FC00000#32)))

/-- Row `r`'s sum of a [768, 65536] array of extended reals. -/
def rowSum (u : A2.Idx → EReal) (r : Fin 768) : EReal := ∑ k : Fin 65536, u (ix2 r k)

/-- A [768, 128] array every lane of whose row `r` holds row `r`'s sum of `u`. -/
def lanes (u : A2.Idx → EReal) : A2l.Idx → EReal := fun i => rowSum u ⟨(i 0).val, (i 0).isLt⟩

theorem lanes_apply (u : A2.Idx → EReal) (r : Fin 768) (l : Fin 128) : lanes u (ix2 r l) = rowSum u r := rfl

end Cert.VarSpec

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.KWindows.lean ====
/-
  What the five output arrays hold after the kernel region: every lane of row r holds a sum over row r's 65536 entries —
  of x, of x², of y, of y², of x·y.

  The road. Each grid point t owns rows 16·t … 16·t + 15: every window's block index there is (t, 0), decided once over
  the 48 points. At a point the body stores, for each output, one payload over the whole staging buffer: a sum along the
  long axis of the loaded block (or of a product of loaded blocks), kept as a column and spread over the 128 lanes. Read
  at an index, the payload is the sum of the block's row; the block's row p is the array's row 16·t + p; so what the
  point writes back is its block of ONE whole-array function, the lane-spread row sums. Row r lies in the block of point
  r / 16, every point writes back, and so the array ends holding that function.
-/
import proofs.«157548_j82686710383027_1_alg».proof.Proof.Gen.KernelIdeal.Frame
import proofs.«157548_j82686710383027_1_alg».proof.Proof.Spec
import proofs.«157548_j82686710383027_1_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Cert.VarSpec (lanes rowSum)

variable (m : (ℓ : Loc nD τ sig) → Buf (Elt Ideal) ℓ)

/-- The two flattened inputs as the region finds them. -/
abbrev xarr (c : Dev nD) : Vec Ideal S768x65536 .f32 := V m c main_v0
abbrev yarr (c : Dev nD) : Vec Ideal S768x65536 .f32 := V m c main_v1

theorem hz : (![0, 0] : Fin 2 → Nat) = fun _ => 0 := funext fun a => by fin_cases a <;> rfl

/-- The printed index maps, decided once over the 48 points: every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks -/

/-- The first input's block at point t is rows 16t … 16t + 15 of the first array: entry x of the block is the array's
    entry k whenever k's row is 16·t + x's row and the columns agree. -/
theorem xblk_apply (c : Dev nD) (t : Fin cfg0.N) (x : S16x65536.Idx) (k : S768x65536.Idx)
    (hk0 : (k 0).val = 16 * t.val + (x 0).val) (hk1 : (k 1).val = (x 1).val) :
    (iblk m c 0 t : Vec Ideal S16x65536 .f32) x = xarr m c k := by
  obtain ⟨h0, h1, -⟩ := idx_facts t
  unfold iblk
  rw [View.read_apply]
  show V m c main_v0 _ = V m c main_v0 _
  congr 1
  funext a
  apply Fin.ext
  match a with
  | ⟨0, _⟩ => show win0_0.index t (0 : Fin 2) * 16 + 1 * (x 0).val = (k 0).val; rw [h0, hk0]; omega
  | ⟨1, _⟩ => show win0_0.index t (1 : Fin 2) * 65536 + 1 * (x 1).val = (k 1).val; rw [h1, hk1]; omega

/-- The second input's block at point t is the same rows of the second array. -/
theorem yblk_apply (c : Dev nD) (t : Fin cfg0.N) (x : S16x65536.Idx) (k : S768x65536.Idx)
    (hk0 : (k 0).val = 16 * t.val + (x 0).val) (hk1 : (k 1).val = (x 1).val) :
    (iblk m c 1 t : Vec Ideal S16x65536 .f32) x = yarr m c k := by
  obtain ⟨-, -, h0, h1, -⟩ := idx_facts t
  unfold iblk
  rw [View.read_apply]
  show V m c main_v1 _ = V m c main_v1 _
  congr 1
  funext a
  apply Fin.ext
  match a with
  | ⟨0, _⟩ => show win0_1.index t (0 : Fin 2) * 16 + 1 * (x 0).val = (k 0).val; rw [h0, hk0]; omega
  | ⟨1, _⟩ => show win0_1.index t (1 : Fin 2) * 65536 + 1 * (x 1).val = (k 1).val; rw [h1, hk1]; omega

/-! ## Row sums of a block are row sums of the array -/

/-- Row sums move with the rows: if a [16, 65536] block u holds rows 16·T … 16·T + 15 of a [768, 65536] array G, the sum
    of the block's row p is what every lane of row 16·T + p of the array of lane-spread row sums of G holds. -/
theorem rowsum_blk (u : S16x65536.Idx → EReal) (G : S768x65536.Idx → EReal) (T : ℕ)
    (hu : ∀ (x : S16x65536.Idx) (k : S768x65536.Idx), (k 0).val = 16 * T + (x 0).val → (k 1).val = (x 1).val → u x = G k)
    (p : Fin 16) (i : S768x128.Idx) (hi : (i 0).val = 16 * T + p.val) :
    ∑ k : Fin 65536, u (ix2 p k) = lanes G i := by
  show _ = ∑ k : Fin 65536, G (ix2 ⟨(i 0).val, (i 0).isLt⟩ k)
  exact Finset.sum_congr rfl fun k _ => hu _ _ hi rfl

/-! ## The five payloads at an index -/

/-- Window 2's payload at row p, lane l: the sum of row p of the first block. -/
theorem sumx_apply (x0 : Vec Ideal S16x65536 .f32) (p : Fin 16) (l : Fin 128) :
    k0_pay3 x0 (ix2 p l) = ∑ k : Fin 65536, x0 (ix2 p k) := by
  unfold k0_pay3 k0_pay1
  dsimp only
  rw [Cert.LibColumn.broadcastTo_a1_ab_apply, shapeCast_self, Cert.LibColumn.shapeCast_a_a1_apply,
    Cert.LibColumn.multiReduction_add_last_apply, shapeCast_self]

/-- Window 3's payload at row p, lane l: the sum of the squares of row p of the first block. -/
theorem sumxx_apply (x0 : Vec Ideal S16x65536 .f32) (p : Fin 16) (l : Fin 128) :
    k0_pay4 x0 (ix2 p l) = ∑ k : Fin 65536, x0 (ix2 p k) * x0 (ix2 p k) := by
  unfold k0_pay4 k0_pay1
  dsimp only
  rw [Cert.LibColumn.broadcastTo_a1_ab_apply, shapeCast_self, Cert.LibColumn.shapeCast_a_a1_apply,
    Cert.LibColumn.multiReduction_add_last_apply, shapeCast_self]
  exact Finset.sum_congr rfl fun k _ => mulf_apply _ _ _

/-- Window 4's payload at row p, lane l: the sum of row p of the second block. -/
theorem sumy_apply (x1 : Vec Ideal S16x65536 .f32) (p : Fin 16) (l : Fin 128) :
    k0_pay5 x1 (ix2 p l) = ∑ k : Fin 65536, x1 (ix2 p k) := by
  unfold k0_pay5 k0_pay2
  dsimp only
  rw [Cert.LibColumn.broadcastTo_a1_ab_apply, shapeCast_self, Cert.LibColumn.shapeCast_a_a1_apply,
    Cert.LibColumn.multiReduction_add_last_apply, shapeCast_self]

/-- Window 5's payload at row p, lane l: the sum of the squares of row p of the second block. -/
theorem sumyy_apply (x1 : Vec Ideal S16x65536 .f32) (p : Fin 16) (l : Fin 128) :
    k0_pay6 x1 (ix2 p l) = ∑ k : Fin 65536, x1 (ix2 p k) * x1 (ix2 p k) := by
  unfold k0_pay6 k0_pay2
  dsimp only
  rw [Cert.LibColumn.broadcastTo_a1_ab_apply, shapeCast_self, Cert.LibColumn.shapeCast_a_a1_apply,
    Cert.LibColumn.multiReduction_add_last_apply, shapeCast_self]
  exact Finset.sum_congr rfl fun k _ => mulf_apply _ _ _

/-- Window 6's payload at row p, lane l: the sum over row p of the products of the two blocks' entries. -/
theorem sumxy_apply (x0 x1 : Vec Ideal S16x65536 .f32) (p : Fin 16) (l : Fin 128) :
    k0_pay7 x0 x1 (ix2 p l) = ∑ k : Fin 65536, x0 (ix2 p k) * x1 (ix2 p k) := by
  unfold k0_pay7 k0_pay1 k0_pay2
  dsimp only
  rw [Cert.LibColumn.broadcastTo_a1_ab_apply, shapeCast_self, Cert.LibColumn.shapeCast_a_a1_apply,
    Cert.LibColumn.multiReduction_add_last_apply, shapeCast_self, shapeCast_self]
  exact Finset.sum_congr rfl fun k _ => mulf_apply _ _ _

/-! ## The payloads of blocks that hold rows 16·T … of arrays, at a block index, against the arrays' lane-spread row sums -/

theorem sumx_blk (x0 : Vec Ideal S16x65536 .f32) (G : S768x65536.Idx → EReal) (T : ℕ)
    (hx : ∀ (x : S16x65536.Idx) (k : S768x65536.Idx), (k 0).val = 16 * T + (x 0).val → (k 1).val = (x 1).val → x0 x = G k)
    (j : S16x128.Idx) (i : S768x128.Idx) (hi : (i 0).val = 16 * T + (j 0).val) :
    k0_pay3 x0 j = lanes G i :=
  ((congrArg (k0_pay3 x0) (eq_ix2 j)).trans (sumx_apply x0 (j 0) (j 1))).trans (rowsum_blk x0 G T hx (j 0) i hi)

theorem sumxx_blk (x0 : Vec Ideal S16x65536 .f32) (G : S768x65536.Idx → EReal) (T : ℕ)
    (hx : ∀ (x : S16x65536.Idx) (k : S768x65536.Idx), (k 0).val = 16 * T + (x 0).val → (k 1).val = (x 1).val → x0 x = G k)
    (j : S16x128.Idx) (i : S768x128.Idx) (hi : (i 0).val = 16 * T + (j 0).val) :
    k0_pay4 x0 j = lanes (fun i => G i * G i) i :=
  ((congrArg (k0_pay4 x0) (eq_ix2 j)).trans (sumxx_apply x0 (j 0) (j 1))).trans
    (rowsum_blk (fun x => x0 x * x0 x) (fun i => G i * G i) T
      (fun x k h0 h1 => by show x0 x * x0 x = G k * G k; rw [hx x k h0 h1]) (j 0) i hi)

theorem sumy_blk (x1 : Vec Ideal S16x65536 .f32) (H : S768x65536.Idx → EReal) (T : ℕ)
    (hy : ∀ (x : S16x65536.Idx) (k : S768x65536.Idx), (k 0).val = 16 * T + (x 0).val → (k 1).val = (x 1).val → x1 x = H k)
    (j : S16x128.Idx) (i : S768x128.Idx) (hi : (i 0).val = 16 * T + (j 0).val) :
    k0_pay5 x1 j = lanes H i :=
  ((congrArg (k0_pay5 x1) (eq_ix2 j)).trans (sumy_apply x1 (j 0) (j 1))).trans (rowsum_blk x1 H T hy (j 0) i hi)

theorem sumyy_blk (x1 : Vec Ideal S16x65536 .f32) (H : S768x65536.Idx → EReal) (T : ℕ)
    (hy : ∀ (x : S16x65536.Idx) (k : S768x65536.Idx), (k 0).val = 16 * T + (x 0).val → (k 1).val = (x 1).val → x1 x = H k)
    (j : S16x128.Idx) (i : S768x128.Idx) (hi : (i 0).val = 16 * T + (j 0).val) :
    k0_pay6 x1 j = lanes (fun i => H i * H i) i :=
  ((congrArg (k0_pay6 x1) (eq_ix2 j)).trans (sumyy_apply x1 (j 0) (j 1))).trans
    (rowsum_blk (fun x => x1 x * x1 x) (fun i => H i * H i) T
      (fun x k h0 h1 => by show x1 x * x1 x = H k * H k; rw [hy x k h0 h1]) (j 0) i hi)

theorem sumxy_blk (x0 x1 : Vec Ideal S16x65536 .f32) (G H : S768x65536.Idx → EReal) (T : ℕ)
    (hx : ∀ (x : S16x65536.Idx) (k : S768x65536.Idx), (k 0).val = 16 * T + (x 0).val → (k 1).val = (x 1).val → x0 x = G k)
    (hy : ∀ (x : S16x65536.Idx) (k : S768x65536.Idx), (k 0).val = 16 * T + (x 0).val → (k 1).val = (x 1).val → x1 x = H k)
    (j : S16x128.Idx) (i : S768x128.Idx) (hi : (i 0).val = 16 * T + (j 0).val) :
    k0_pay7 x0 x1 j = lanes (fun i => G i * H i) i :=
  ((congrArg (k0_pay7 x0 x1) (eq_ix2 j)).trans (sumxy_apply x0 x1 (j 0) (j 1))).trans
    (rowsum_blk (fun x => x0 x * x1 x) (fun i => G i * H i) T
      (fun x k h0 h1 => by show x0 x * x1 x = G k * H k; rw [hx x k h0 h1, hy x k h0 h1]) (j 0) i hi)

/-! ## Output window 2: the row sums of x -/

/-- What point t writes back to output window 2 is block t of the array of lane-spread row sums of x. -/
theorem flushed2_eq (c : Dev nD) (t : Fin cfg0.N) :
    (dats m 0 c).flushed 2 t = ((cfg0.win 2).blk t).view.read (Elt Ideal) (lanes (xarr m c)) := by
  show (cfg0.win 2).cut (grid0.coords t) ((dats m 0 c).after 2 t) = _
  rw [after0_2]
  unfold out0_2
  rw [View.canon_unit_zero hz]
  simp only [View.ld_unit_zero (S := S16x65536) hz]
  obtain ⟨-, -, -, -, hr, -⟩ := idx_facts t
  funext j
  rw [View.read_apply, cast_eq]
  show k0_pay3 (iblk m c 0 t) j = _
  refine sumx_blk (iblk m c 0 t) (xarr m c) t.val (xblk_apply m c t) j _ ?_
  show win0_2.index t (0 : Fin 2) * 16 + 1 * (j 0).val = 16 * t.val + (j 0).val
  rw [hr]; omega

/-- An index of the [768, 128] array is in point t's block of window 2 iff each coordinate is in the block's range. -/
theorem mem_blk2 (t : Fin cfg0.N) (i : S768x128.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v2_0).slice (win0_2.rect t)).set ↔ _
  rw [View.set_slice_whole, Rect.mem_set_unit]
  exact Iff.rfl

/-- Row r is in the block of point r / 16, which writes back. -/
theorem cover2 (i : S768x128.Idx) :
    ∃ t : Fin cfg0.N, (cfg0.win 2).flush t = true ∧ i ∈ ((cfg0.win 2).blk t).view.set := by
  have hi0 : (i 0).val < 768 := (i 0).isLt
  have hi1 : (i 1).val < 128 := (i 1).isLt
  have hlt : (i 0).val / 16 < cfg0.N := by rw [show cfg0.N = 48 from N_0]; omega
  obtain ⟨-, -, -, -, hr, hc, -⟩ := idx_facts ⟨(i 0).val / 16, hlt⟩
  have hr' : win0_2.index ⟨(i 0).val / 16, hlt⟩ (0 : Fin 2) = (i 0).val / 16 := hr
  refine ⟨⟨(i 0).val / 16, hlt⟩, flush0_2 _, ?_⟩
  rw [mem_blk2]
  intro a
  match a with
  | ⟨0, _⟩ =>
    show win0_2.index ⟨(i 0).val / 16, hlt⟩ (0 : Fin 2) * 16 ≤ (i 0).val ∧ (i 0).val < win0_2.index ⟨(i 0).val / 16, hlt⟩ (0 : Fin 2) * 16 + 16
    rw [hr']; omega
  | ⟨1, _⟩ =>
    show win0_2.index ⟨(i 0).val / 16, hlt⟩ (1 : Fin 2) * 128 ≤ (i 1).val ∧ (i 1).val < win0_2.index ⟨(i 0).val / 16, hlt⟩ (1 : Fin 2) * 128 + 128
    rw [hc]; omega

theorem final2 (c : Dev nD) : (dats m 0 c).arrAt 2 cfg0.N = lanes (xarr m c) :=
  (dats m 0 c).arrAt_eq_of_cover 2 (lanes (xarr m c)) (fun t _ => flushed2_eq m c t) cover2

/-! ## Output window 3: the row sums of x·x -/

/-- What point t writes back to output window 3 is block t of the array of lane-spread row sums of x·x. -/
theorem flushed3_eq (c : Dev nD) (t : Fin cfg0.N) :
    (dats m 0 c).flushed 3 t = ((cfg0.win 3).blk t).view.read (Elt Ideal) (lanes (fun i => xarr m c i * xarr m c i)) := by
  show (cfg0.win 3).cut (grid0.coords t) ((dats m 0 c).after 3 t) = _
  rw [after0_3]
  unfold out0_3
  rw [View.canon_unit_zero hz]
  simp only [View.ld_unit_zero (S := S16x65536) hz]
  obtain ⟨-, -, -, -, -, -, hr, -⟩ := idx_facts t
  funext j
  rw [View.read_apply, cast_eq]
  show k0_pay4 (iblk m c 0 t) j = _
  refine sumxx_blk (iblk m c 0 t) (xarr m c) t.val (xblk_apply m c t) j _ ?_
  show win0_3.index t (0 : Fin 2) * 16 + 1 * (j 0).val = 16 * t.val + (j 0).val
  rw [hr]; omega

/-- An index of the [768, 128] array is in point t's block of window 3 iff each coordinate is in the block's range. -/
theorem mem_blk3 (t : Fin cfg0.N) (i : S768x128.Idx) :
    i ∈ ((cfg0.win 3).blk t).view.set ↔ ∀ a : Fin 2, win0_3.index t a * S16x128.size a ≤ (i a).val ∧ (i a).val < win0_3.index t a * S16x128.size a + S16x128.size a := by
  show i ∈ ((View.whole main_v2_1).slice (win0_3.rect t)).set ↔ _
  rw [View.set_slice_whole, Rect.mem_set_unit]
  exact Iff.rfl

/-- Row r is in the block of point r / 16, which writes back. -/
theorem cover3 (i : S768x128.Idx) :
    ∃ t : Fin cfg0.N, (cfg0.win 3).flush t = true ∧ i ∈ ((cfg0.win 3).blk t).view.set := by
  have hi0 : (i 0).val < 768 := (i 0).isLt
  have hi1 : (i 1).val < 128 := (i 1).isLt
  have hlt : (i 0).val / 16 < cfg0.N := by rw [show cfg0.N = 48 from N_0]; omega
  obtain ⟨-, -, -, -, -, -, hr, hc, -⟩ := idx_facts ⟨(i 0).val / 16, hlt⟩
  have hr' : win0_3.index ⟨(i 0).val / 16, hlt⟩ (0 : Fin 2) = (i 0).val / 16 := hr
  refine ⟨⟨(i 0).val / 16, hlt⟩, flush0_3 _, ?_⟩
  rw [mem_blk3]
  intro a
  match a with
  | ⟨0, _⟩ =>
    show win0_3.index ⟨(i 0).val / 16, hlt⟩ (0 : Fin 2) * 16 ≤ (i 0).val ∧ (i 0).val < win0_3.index ⟨(i 0).val / 16, hlt⟩ (0 : Fin 2) * 16 + 16
    rw [hr']; omega
  | ⟨1, _⟩ =>
    show win0_3.index ⟨(i 0).val / 16, hlt⟩ (1 : Fin 2) * 128 ≤ (i 1).val ∧ (i 1).val < win0_3.index ⟨(i 0).val / 16, hlt⟩ (1 : Fin 2) * 128 + 128
    rw [hc]; omega

theorem final3 (c : Dev nD) : (dats m 0 c).arrAt 3 cfg0.N = lanes (fun i => xarr m c i * xarr m c i) :=
  (dats m 0 c).arrAt_eq_of_cover 3 (lanes (fun i => xarr m c i * xarr m c i)) (fun t _ => flushed3_eq m c t) cover3

/-! ## Output window 4: the row sums of y -/

/-- What point t writes back to output window 4 is block t of the array of lane-spread row sums of y. -/
theorem flushed4_eq (c : Dev nD) (t : Fin cfg0.N) :
    (dats m 0 c).flushed 4 t = ((cfg0.win 4).blk t).view.read (Elt Ideal) (lanes (yarr m c)) := by
  show (cfg0.win 4).cut (grid0.coords t) ((dats m 0 c).after 4 t) = _
  rw [after0_4]
  unfold out0_4
  rw [View.canon_unit_zero hz]
  simp only [View.ld_unit_zero (S := S16x65536) hz]
  obtain ⟨-, -, -, -, -, -, -, -, hr, -⟩ := idx_facts t
  funext j
  rw [View.read_apply, cast_eq]
  show k0_pay5 (iblk m c 1 t) j = _
  refine sumy_blk (iblk m c 1 t) (yarr m c) t.val (yblk_apply m c t) j _ ?_
  show win0_4.index t (0 : Fin 2) * 16 + 1 * (j 0).val = 16 * t.val + (j 0).val
  rw [hr]; omega

/-- An index of the [768, 128] array is in point t's block of window 4 iff each coordinate is in the block's range. -/
theorem mem_blk4 (t : Fin cfg0.N) (i : S768x128.Idx) :
    i ∈ ((cfg0.win 4).blk t).view.set ↔ ∀ a : Fin 2, win0_4.index t a * S16x128.size a ≤ (i a).val ∧ (i a).val < win0_4.index t a * S16x128.size a + S16x128.size a := by
  show i ∈ ((View.whole main_v2_2).slice (win0_4.rect t)).set ↔ _
  rw [View.set_slice_whole, Rect.mem_set_unit]
  exact Iff.rfl

/-- Row r is in the block of point r / 16, which writes back. -/
theorem cover4 (i : S768x128.Idx) :
    ∃ t : Fin cfg0.N, (cfg0.win 4).flush t = true ∧ i ∈ ((cfg0.win 4).blk t).view.set := by
  have hi0 : (i 0).val < 768 := (i 0).isLt
  have hi1 : (i 1).val < 128 := (i 1).isLt
  have hlt : (i 0).val / 16 < cfg0.N := by rw [show cfg0.N = 48 from N_0]; omega
  obtain ⟨-, -, -, -, -, -, -, -, hr, hc, -⟩ := idx_facts ⟨(i 0).val / 16, hlt⟩
  have hr' : win0_4.index ⟨(i 0).val / 16, hlt⟩ (0 : Fin 2) = (i 0).val / 16 := hr
  refine ⟨⟨(i 0).val / 16, hlt⟩, flush0_4 _, ?_⟩
  rw [mem_blk4]
  intro a
  match a with
  | ⟨0, _⟩ =>
    show win0_4.index ⟨(i 0).val / 16, hlt⟩ (0 : Fin 2) * 16 ≤ (i 0).val ∧ (i 0).val < win0_4.index ⟨(i 0).val / 16, hlt⟩ (0 : Fin 2) * 16 + 16
    rw [hr']; omega
  | ⟨1, _⟩ =>
    show win0_4.index ⟨(i 0).val / 16, hlt⟩ (1 : Fin 2) * 128 ≤ (i 1).val ∧ (i 1).val < win0_4.index ⟨(i 0).val / 16, hlt⟩ (1 : Fin 2) * 128 + 128
    rw [hc]; omega

theorem final4 (c : Dev nD) : (dats m 0 c).arrAt 4 cfg0.N = lanes (yarr m c) :=
  (dats m 0 c).arrAt_eq_of_cover 4 (lanes (yarr m c)) (fun t _ => flushed4_eq m c t) cover4

/-! ## Output window 5: the row sums of y·y -/

/-- What point t writes back to output window 5 is block t of the array of lane-spread row sums of y·y. -/
theorem flushed5_eq (c : Dev nD) (t : Fin cfg0.N) :
    (dats m 0 c).flushed 5 t = ((cfg0.win 5).blk t).view.read (Elt Ideal) (lanes (fun i => yarr m c i * yarr m c i)) := by
  show (cfg0.win 5).cut (grid0.coords t) ((dats m 0 c).after 5 t) = _
  rw [after0_5]
  unfold out0_5
  rw [View.canon_unit_zero hz]
  simp only [View.ld_unit_zero (S := S16x65536) hz]
  obtain ⟨-, -, -, -, -, -, -, -, -, -, hr, -⟩ := idx_facts t
  funext j
  rw [View.read_apply, cast_eq]
  show k0_pay6 (iblk m c 1 t) j = _
  refine sumyy_blk (iblk m c 1 t) (yarr m c) t.val (yblk_apply m c t) j _ ?_
  show win0_5.index t (0 : Fin 2) * 16 + 1 * (j 0).val = 16 * t.val + (j 0).val
  rw [hr]; omega

/-- An index of the [768, 128] array is in point t's block of window 5 iff each coordinate is in the block's range. -/
theorem mem_blk5 (t : Fin cfg0.N) (i : S768x128.Idx) :
    i ∈ ((cfg0.win 5).blk t).view.set ↔ ∀ a : Fin 2, win0_5.index t a * S16x128.size a ≤ (i a).val ∧ (i a).val < win0_5.index t a * S16x128.size a + S16x128.size a := by
  show i ∈ ((View.whole main_v2_3).slice (win0_5.rect t)).set ↔ _
  rw [View.set_slice_whole, Rect.mem_set_unit]
  exact Iff.rfl

/-- Row r is in the block of point r / 16, which writes back. -/
theorem cover5 (i : S768x128.Idx) :
    ∃ t : Fin cfg0.N, (cfg0.win 5).flush t = true ∧ i ∈ ((cfg0.win 5).blk t).view.set := by
  have hi0 : (i 0).val < 768 := (i 0).isLt
  have hi1 : (i 1).val < 128 := (i 1).isLt
  have hlt : (i 0).val / 16 < cfg0.N := by rw [show cfg0.N = 48 from N_0]; omega
  obtain ⟨-, -, -, -, -, -, -, -, -, -, hr, hc, -⟩ := idx_facts ⟨(i 0).val / 16, hlt⟩
  have hr' : win0_5.index ⟨(i 0).val / 16, hlt⟩ (0 : Fin 2) = (i 0).val / 16 := hr
  refine ⟨⟨(i 0).val / 16, hlt⟩, flush0_5 _, ?_⟩
  rw [mem_blk5]
  intro a
  match a with
  | ⟨0, _⟩ =>
    show win0_5.index ⟨(i 0).val / 16, hlt⟩ (0 : Fin 2) * 16 ≤ (i 0).val ∧ (i 0).val < win0_5.index ⟨(i 0).val / 16, hlt⟩ (0 : Fin 2) * 16 + 16
    rw [hr']; omega
  | ⟨1, _⟩ =>
    show win0_5.index ⟨(i 0).val / 16, hlt⟩ (1 : Fin 2) * 128 ≤ (i 1).val ∧ (i 1).val < win0_5.index ⟨(i 0).val / 16, hlt⟩ (1 : Fin 2) * 128 + 128
    rw [hc]; omega

theorem final5 (c : Dev nD) : (dats m 0 c).arrAt 5 cfg0.N = lanes (fun i => yarr m c i * yarr m c i) :=
  (dats m 0 c).arrAt_eq_of_cover 5 (lanes (fun i => yarr m c i * yarr m c i)) (fun t _ => flushed5_eq m c t) cover5

/-! ## Output window 6: the row sums of x·y -/

/-- What point t writes back to output window 6 is block t of the array of lane-spread row sums of x·y. -/
theorem flushed6_eq (c : Dev nD) (t : Fin cfg0.N) :
    (dats m 0 c).flushed 6 t = ((cfg0.win 6).blk t).view.read (Elt Ideal) (lanes (fun i => xarr m c i * yarr m c i)) := by
  show (cfg0.win 6).cut (grid0.coords t) ((dats m 0 c).after 6 t) = _
  rw [after0_6]
  unfold out0_6
  rw [View.canon_unit_zero hz]
  simp only [View.ld_unit_zero (S := S16x65536) hz]
  obtain ⟨-, -, -, -, -, -, -, -, -, -, -, -, hr, -⟩ := idx_facts t
  funext j
  rw [View.read_apply, cast_eq]
  show k0_pay7 (iblk m c 0 t) (iblk m c 1 t) j = _
  refine sumxy_blk (iblk m c 0 t) (iblk m c 1 t) (xarr m c) (yarr m c) t.val (xblk_apply m c t) (yblk_apply m c t) j _ ?_
  show win0_6.index t (0 : Fin 2) * 16 + 1 * (j 0).val = 16 * t.val + (j 0).val
  rw [hr]; omega

/-- An index of the [768, 128] array is in point t's block of window 6 iff each coordinate is in the block's range. -/
theorem mem_blk6 (t : Fin cfg0.N) (i : S768x128.Idx) :
    i ∈ ((cfg0.win 6).blk t).view.set ↔ ∀ a : Fin 2, win0_6.index t a * S16x128.size a ≤ (i a).val ∧ (i a).val < win0_6.index t a * S16x128.size a + S16x128.size a := by
  show i ∈ ((View.whole main_v2_4).slice (win0_6.rect t)).set ↔ _
  rw [View.set_slice_whole, Rect.mem_set_unit]
  exact Iff.rfl

/-- Row r is in the block of point r / 16, which writes back. -/
theorem cover6 (i : S768x128.Idx) :
    ∃ t : Fin cfg0.N, (cfg0.win 6).flush t = true ∧ i ∈ ((cfg0.win 6).blk t).view.set := by
  have hi0 : (i 0).val < 768 := (i 0).isLt
  have hi1 : (i 1).val < 128 := (i 1).isLt
  have hlt : (i 0).val / 16 < cfg0.N := by rw [show cfg0.N = 48 from N_0]; omega
  obtain ⟨-, -, -, -, -, -, -, -, -, -, -, -, hr, hc⟩ := idx_facts ⟨(i 0).val / 16, hlt⟩
  have hr' : win0_6.index ⟨(i 0).val / 16, hlt⟩ (0 : Fin 2) = (i 0).val / 16 := hr
  refine ⟨⟨(i 0).val / 16, hlt⟩, flush0_6 _, ?_⟩
  rw [mem_blk6]
  intro a
  match a with
  | ⟨0, _⟩ =>
    show win0_6.index ⟨(i 0).val / 16, hlt⟩ (0 : Fin 2) * 16 ≤ (i 0).val ∧ (i 0).val < win0_6.index ⟨(i 0).val / 16, hlt⟩ (0 : Fin 2) * 16 + 16
    rw [hr']; omega
  | ⟨1, _⟩ =>
    show win0_6.index ⟨(i 0).val / 16, hlt⟩ (1 : Fin 2) * 128 ≤ (i 1).val ∧ (i 1).val < win0_6.index ⟨(i 0).val / 16, hlt⟩ (1 : Fin 2) * 128 + 128
    rw [hc]; omega

theorem final6 (c : Dev nD) : (dats m 0 c).arrAt 6 cfg0.N = lanes (fun i => xarr m c i * yarr m c i) :=
  (dats m 0 c).arrAt_eq_of_cover 6 (lanes (fun i => xarr m c i * yarr m c i)) (fun t _ => flushed6_eq m c t) cover6

end Cert.KernelIdeal.KVal

end
-- ==== Proof.KTail.lean ====
/-
  The kernel program's result. After the region the five output arrays hold row sums in every lane; the host lines after
  it take lane 0 of each row, form the three variances from the sums, and close with the shared expression.
-/
import proofs.«157548_j82686710383027_1_alg».proof.Proof.Gen.KernelIdeal.Frame
import proofs.«157548_j82686710383027_1_alg».proof.Proof.Spec
import proofs.«157548_j82686710383027_1_alg».proof.Proof.KWindows
import Idealize.ShloMosaic.Lib.StableHlo.Run
import Idealize.ShloMosaic.Lib.Pipeline.Value

noncomputable section

namespace Cert.KernelIdeal.KVal

open Cert.KernelIdeal Cert.KernelIdeal.Gen Idealize.ShloMosaic Idealize.ShloMosaic.TcCoe Idealize.SL.Sem Idealize.ShloMosaic.StableHlo
open Cert.VarSpec (tail varOfSums sqOfSums lanes rowSum)

/-- Lane 0 of every row of a [768, 128] array, as a [768] array. -/
def col (w : FVec Ideal S768x128 .f32) : FVec Ideal S768 .f32 :=
  fun i => shapeCast S768 (extractStridedSlice S768x1 ![0, 0] w slices_S768x128_S768x1_0_0) shapeCasts_S768x1_S768 i

/-- The host lines after the region as one function of the five arrays (row sums of x, x², y, y², x·y in the lanes). -/
def kval (a2 a3 a4 a5 a6 : FVec Ideal S768x128 .f32) : FVec Ideal S_ .f32 :=
  tail bcast_S_S768 reducesTo_S768_S_d0 h_S_
    (varOfSums bcast_S_S768 (col a2) (col a3))
    (varOfSums bcast_S_S768 (col a4) (col a5))
    (varOfSums bcast_S_S768 (addf (col a2) (col a4)) (sqOfSums bcast_S_S768 (col a3) (col a5) (col a6)))

set_option maxRecDepth 8192 in
/-- The fifty-six host lines after the region leave the result at `kval` of the five arrays they start from. -/
theorem tail_after (W : Valuation τ sig (Elt Ideal)) :
    StableHlo.after (hostOps1 (F := Ideal)) W (Proc.devRef .tc main_v47)
      = kval (W (Proc.devRef .tc main_v2_0)) (W (Proc.devRef .tc main_v2_1)) (W (Proc.devRef .tc main_v2_2))
          (W (Proc.devRef .tc main_v2_3)) (W (Proc.devRef .tc main_v2_4)) := by
  after_results_simp
  rfl

variable (m : (ℓ : Loc nD τ sig) → Buf (Elt Ideal) ℓ) (ρ : Dev nD → PrngReg)

/-- The region finds each input flattened: the one host line before it that writes the array is a reshape. -/
theorem xarr_eq (c : Dev nD) :
    xarr m c = shapeCast S768x65536 (m ((c.tc : Thread nD τ).loc main_arg0)) shapeCasts_S8x16x6x256x256_S768x65536 := by
  show StableHlo.after (List.flatten [hostOps0]) (fun b => m (c, b)) (Proc.devRef .tc main_v0) = _
  simp only [hostOps0, List.flatten_cons, List.flatten_nil, List.append_nil]
  after_results
  rfl

theorem yarr_eq (c : Dev nD) :
    yarr m c = shapeCast S768x65536 (m ((c.tc : Thread nD τ).loc main_arg1)) shapeCasts_S8x16x6x256x256_S768x65536 := by
  show StableHlo.after (List.flatten [hostOps0]) (fun b => m (c, b)) (Proc.devRef .tc main_v1) = _
  simp only [hostOps0, List.flatten_cons, List.flatten_nil, List.append_nil]
  after_results
  rfl

/-- The kernel program's result as a function of the two flattened inputs. -/
def kres (X Y : Vec Ideal S768x65536 .f32) : FVec Ideal S_ .f32 :=
  kval (lanes X) (lanes fun i => X i * X i) (lanes Y) (lanes fun i => Y i * Y i) (lanes fun i => X i * Y i)

/-- What the host lines after the region leave in the result buffer, the region's arrays being the row sums. -/
theorem tail_eq (c : Dev nD) :
    Pipeline.afterTail₀ cfgs (dats m) 0 (V0 m) [hostOps1] c main_v47 = kres (xarr m c) (yarr m c) := by
  unfold Pipeline.afterTail₀
  simp only [List.flatten_cons, List.flatten_nil, List.append_nil]
  rw [tail_after]
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  have e6 := (Pipeline.withArrays_arr spec0 launch0.win.arr_inj c (V0 m c) (fun w => (dats m 0 c).arrAt w cfg0.N) 6).trans (final6 m c)
  unfold kres
  exact congr (congr (congr (congr (congrArg kval e2) e3) e4) e5) e6

/-- Every weakly fair execution of the kernel program ends with its result at `kres` of the flattened inputs and with
    both arguments as launched. -/
theorem run :
    θ_run defs (onTc (τ := τ) (main (F := Ideal))) ⟨m, fun _ => 0, ρ⟩ fun r => ∀ c : Dev nD,
      r.2.mem ((c.tc : Thread nD τ).loc main_v47) = kres (xarr m c) (yarr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v47 (Pipeline.mem_restRefs_of main_v47 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.RefRun.lean ====
/-
  The reference program read as one straight line of host operations, and what its result buffer holds afterwards.
-/
import proofs.«157548_j82686710383027_1_alg».proof.Proof.Gen.ReferenceIdeal
import proofs.«157548_j82686710383027_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.VarSpec (tail varCentred)

variable {F : FTy → Type} [FloatOps F]

/-- Each flattened input. -/
abbrev flat (a : FVec F S8x16x6x256x256 .f32) : FVec F S768x65536 .f32 :=
  shapeCast S768x65536 a shapeCasts_S8x16x6x256x256_S768x65536

/-- The centred variance of every row, at this program's shape facts. -/
abbrev var (x : FVec F S768x65536 .f32) : FVec F S768 .f32 :=
  varCentred reducesTo_S768x65536_S768_d1 h_S_ bcast_S768_S768x1_0 bcast_S_S768x1 bcast_S768x1_S768x65536_0_1 bcast_S_S768 x

/-- The program's 88 operations in the order they run: the two inputs flattened to 768 rows; the integer 1; the
    row variance of the first (nineteen operations, then the three of the guarded choice, the call's result being
    the choice's); the same of the second; the entrywise sum of the two flattened inputs and its row variance; and the
    sixteen of the closing expression. Each call of the variance is written out over that call's own buffers. -/
abbrev ops : List (HloOp τ sig (Elt F)) :=
  [
    reshape main_arg0 main_v0 rfl shapeCasts_S8x16x6x256x256_S768x65536,
    reshape main_arg1 main_v1 rfl shapeCasts_S8x16x6x256x256_S768x65536,
    nullary main_c (constantI S_ 32 1#32),
    TRef.nullary main_call0.cst (constant S_ .f32 0x00000000#32),
    TRef.binary (.of main_v0) main_call0.cst main_call0.v0 (fun x v => Host.reduceAdd x v reducesTo_S768x65536_S768_d1 h_S_),
    TRef.unary main_call0.v0 main_call0.v1 (broadcastInDim S768x1 ![0] bcast_S768_S768x1_0),
    TRef.nullary main_call0.cst_0 (constant S_ .f32 0x47800000#32),
    TRef.unary main_call0.cst_0 main_call0.v2 (broadcastInDim S768x1 ![] bcast_S_S768x1),
    TRef.binary main_call0.v1 main_call0.v2 main_call0.v3 Host.divf,
    TRef.unary main_call0.v3 main_call0.v4 (broadcastInDim S768x65536 ![0, 1] bcast_S768x1_S768x65536_0_1),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S768x65536_S768_d1 h_S_),
    TRef.unary main_call0.v8 main_call0.v10 (broadcastInDim S768 ![] bcast_S_S768),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S768 ![] bcast_S_S768),
    TRef.ternary main_call0.v12 main_call0.v11 main_call0.call0.v1 main_call0.call0.v2 (fun p a b => select (broadcastInDim S768 ![] bcast_S_S768 p) a b),
    nullary main_c_0 (constantI S_ 32 1#32),
    TRef.nullary main_call1.cst (constant S_ .f32 0x00000000#32),
    TRef.binary (.of main_v1) main_call1.cst main_call1.v0 (fun x v => Host.reduceAdd x v reducesTo_S768x65536_S768_d1 h_S_),
    TRef.unary main_call1.v0 main_call1.v1 (broadcastInDim S768x1 ![0] bcast_S768_S768x1_0),
    TRef.nullary main_call1.cst_0 (constant S_ .f32 0x47800000#32),
    TRef.unary main_call1.cst_0 main_call1.v2 (broadcastInDim S768x1 ![] bcast_S_S768x1),
    TRef.binary main_call1.v1 main_call1.v2 main_call1.v3 Host.divf,
    TRef.unary main_call1.v3 main_call1.v4 (broadcastInDim S768x65536 ![0, 1] bcast_S768x1_S768x65536_0_1),
    TRef.binary (.of main_v1) main_call1.v4 main_call1.v5 subf,
    TRef.binary main_call1.v5 main_call1.v5 main_call1.v6 mulf,
    TRef.unary (.of main_c_0) main_call1.v7 (sitofp .f32),
    TRef.nullary main_call1.cst_1 (constant S_ .f32 0x47800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S768x65536_S768_d1 h_S_),
    TRef.unary main_call1.v8 main_call1.v10 (broadcastInDim S768 ![] bcast_S_S768),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S768 ![] bcast_S_S768),
    TRef.ternary main_call1.v12 main_call1.v11 main_call1.call0.v1 main_call1.call0.v2 (fun p a b => select (broadcastInDim S768 ![] bcast_S_S768 p) a b),
    binary main_v0 main_v1 main_v4 (addf : (⟨S768x65536, .f32⟩ : BufTy).Contents (Elt F) → (⟨S768x65536, .f32⟩ : BufTy).Contents (Elt F) → (⟨S768x65536, .f32⟩ : BufTy).Contents (Elt F)),
    nullary main_c_1 (constantI S_ 32 1#32),
    TRef.nullary main_call2.cst (constant S_ .f32 0x00000000#32),
    TRef.binary (.of main_v4) main_call2.cst main_call2.v0 (fun x v => Host.reduceAdd x v reducesTo_S768x65536_S768_d1 h_S_),
    TRef.unary main_call2.v0 main_call2.v1 (broadcastInDim S768x1 ![0] bcast_S768_S768x1_0),
    TRef.nullary main_call2.cst_0 (constant S_ .f32 0x47800000#32),
    TRef.unary main_call2.cst_0 main_call2.v2 (broadcastInDim S768x1 ![] bcast_S_S768x1),
    TRef.binary main_call2.v1 main_call2.v2 main_call2.v3 Host.divf,
    TRef.unary main_call2.v3 main_call2.v4 (broadcastInDim S768x65536 ![0, 1] bcast_S768x1_S768x65536_0_1),
    TRef.binary (.of main_v4) main_call2.v4 main_call2.v5 subf,
    TRef.binary main_call2.v5 main_call2.v5 main_call2.v6 mulf,
    TRef.unary (.of main_c_1) main_call2.v7 (sitofp .f32),
    TRef.nullary main_call2.cst_1 (constant S_ .f32 0x47800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S768x65536_S768_d1 h_S_),
    TRef.unary main_call2.v8 main_call2.v10 (broadcastInDim S768 ![] bcast_S_S768),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S768 ![] bcast_S_S768),
    TRef.ternary main_call2.v12 main_call2.v11 main_call2.call0.v1 main_call2.call0.v2 (fun p a b => select (broadcastInDim S768 ![] bcast_S_S768 p) a b),
    binary main_v5 main_v2 main_v6 (subf : (⟨S768, .f32⟩ : BufTy).Contents (Elt F) → (⟨S768, .f32⟩ : BufTy).Contents (Elt F) → (⟨S768, .f32⟩ : BufTy).Contents (Elt F)),
    binary main_v6 main_v3 main_v7 (subf : (⟨S768, .f32⟩ : BufTy).Contents (Elt F) → (⟨S768, .f32⟩ : BufTy).Contents (Elt F) → (⟨S768, .f32⟩ : BufTy).Contents (Elt F)),
    nullary main_cst (constant S_ .f32 0x3F000000#32),
    unary main_cst main_v8 (broadcastInDim S768 ![] bcast_S_S768 : (⟨S_, .f32⟩ : BufTy).Contents (Elt F) → (⟨S768, .f32⟩ : BufTy).Contents (Elt F)),
    binary main_v8 main_v7 main_v9 (mulf : (⟨S768, .f32⟩ : BufTy).Contents (Elt F) → (⟨S768, .f32⟩ : BufTy).Contents (Elt F) → (⟨S768, .f32⟩ : BufTy).Contents (Elt F)),
    binary main_v2 main_v3 main_v10 (mulf : (⟨S768, .f32⟩ : BufTy).Contents (Elt F) → (⟨S768, .f32⟩ : BufTy).Contents (Elt F) → (⟨S768, .f32⟩ : BufTy).Contents (Elt F)),
    unary main_v10 main_v11 (Host.absf : (⟨S768, .f32⟩ : BufTy).Contents (Elt F) → (⟨S768, .f32⟩ : BufTy).Contents (Elt F)),
    unary main_v11 main_v12 (Host.sqrt : (⟨S768, .f32⟩ : BufTy).Contents (Elt F) → (⟨S768, .f32⟩ : BufTy).Contents (Elt F)),
    binary main_v9 main_v12 main_v13 (Host.divf : (⟨S768, .f32⟩ : BufTy).Contents (Elt F) → (⟨S768, .f32⟩ : BufTy).Contents (Elt F) → (⟨S768, .f32⟩ : BufTy).Contents (Elt F)),
    nullary main_cst_2 (constant S_ .f32 0x3F800000#32),
    unary main_cst_2 main_v14 (broadcastInDim S768 ![] bcast_S_S768 : (⟨S_, .f32⟩ : BufTy).Contents (Elt F) → (⟨S768, .f32⟩ : BufTy).Contents (Elt F)),
    binary main_v14 main_v13 main_v15 (subf : (⟨S768, .f32⟩ : BufTy).Contents (Elt F) → (⟨S768, .f32⟩ : BufTy).Contents (Elt F) → (⟨S768, .f32⟩ : BufTy).Contents (Elt F)),
    nullary main_cst_3 (constant S_ .f32 0x00000000#32),
    binary main_v15 main_cst_3 main_v16 ((fun x v => Host.reduceAdd x v reducesTo_S768_S_d0 h_S_) : (⟨S768, .f32⟩ : BufTy).Contents (Elt F) → (⟨S_, .f32⟩ : BufTy).Contents (Elt F) → (⟨S_, .f32⟩ : BufTy).Contents (Elt F)),
    nullary main_cst_4 (constant S_ .f32 0x44400000#32),
    binary main_v16 main_cst_4 main_v17 (Host.divf : (⟨S_, .f32⟩ : BufTy).Contents (Elt F) → (⟨S_, .f32⟩ : BufTy).Contents (Elt F) → (⟨S_, .f32⟩ : BufTy).Contents (Elt F)) ]

-- eighty-eight steps reassociated one by one: the rewriting under the chain is as deep as the chain and its cost grows with the square of it
set_option maxRecDepth 4096 in
set_option maxHeartbeats 1000000 in
/-- The program is that straight line: with the two functions' bodies put in place of their calls and sequencing
    reassociated, both sides are the same chain of steps. -/
theorem main_eq (c : Dev nD) : main (F := F) c = seq ops := by
  simp only [main, fn_var.body, fn_where.body, seq, bind_assoc, pure_bind]

/-- No buffer of the signature is scoped. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨
    reshape_bufs_sub .., reshape_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    binary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., nullary_bufs_sub .., binary_bufs_sub ..⟩

-- the fold is read at one buffer through all eighty-eight operations, the composed term is some four hundred applications deep
set_option maxHeartbeats 2000000 in
set_option maxRecDepth 8192 in
/-- What the result buffer holds after the line, from any contents: each operation's value is put in place of the
    buffer it writes, outermost first, which leaves the operations' composed term of the two arguments; the closing
    expression and the centred variance are that term by definition, the transport of a value to its own buffer's
    type being the identity. -/
theorem v17_eq (V : Valuation τ sig (Elt F)) :
    after ops V (main_v17 : DevRef τ sig)
      = tail bcast_S_S768 reducesTo_S768_S_d0 h_S_
          (var (flat (V (main_arg0 : DevRef τ sig))))
          (var (flat (V (main_arg1 : DevRef τ sig))))
          (var (addf (flat (V (main_arg0 : DevRef τ sig))) (flat (V (main_arg1 : DevRef τ sig))))) := by
  after_results_simp
  rfl

set_option maxHeartbeats 1000000 in
/-- No operation writes the first argument. -/
theorem arg0_eq (V : Valuation τ sig (Elt F)) :
    after ops V (main_arg0 : DevRef τ sig) = V (main_arg0 : DevRef τ sig) := by
  after_results_simp

set_option maxHeartbeats 1000000 in
/-- No operation writes the second argument. -/
theorem arg1_eq (V : Valuation τ sig (Elt F)) :
    after ops V (main_arg1 : DevRef τ sig) = V (main_arg1 : DevRef τ sig) := by
  after_results_simp

/-- Every weakly fair execution of the reference ends with its result at the closing expression of the three centred
    variances — of the flattened x, of the flattened y, of their sum — and with both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = tail bcast_S_S768 reducesTo_S768_S_d0 h_S_
            (var (flat (m ((c.tc : Thread nD τ).loc main_arg0))))
            (var (flat (m ((c.tc : Thread nD τ).loc main_arg1))))
            (var (addf (flat (m ((c.tc : Thread nD τ).loc main_arg0))) (flat (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (v17_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.Finite.lean ====
/-
  Finite inputs are real numbers: the precondition says every entry of both inputs is smaller in absolute value than
  +∞, and an extended real with that property is neither infinity.
-/
import proofs.«157548_j82686710383027_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs Cert.Pre_finite_inputs.Gen

/-- An extended real whose absolute value max x (-x) lies strictly below +∞ is a real number:
    at +∞ the maximum is +∞, at -∞ the negation is +∞, and neither is below +∞. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 read as a binary32 pattern is +∞: exponent field all ones, fraction zero, sign clear. -/
theorem ofBits_inf : Ideal.ofBits .f32 0x7F800000#32 = ⊤ := by simp [Ideal.ofBits, Ideal.ieee]

/-- One entry: if the comparison |x| < +∞ gives the word 1, then x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  -- on the extended reals the comparison is the order's, and the absolute value is max x (-x)
  have h' : Ideal.cmp .olt (max (x : EReal) (-(x : EReal))) (Ideal.ofBits .f32 0x7F800000#32) = 1#1 := h
  rw [ofBits_inf] at h'
  refine real_of_abs_lt_top x ?_
  by_contra hn
  simp [Ideal.cmp, hn] at h'

/-- Under the precondition every entry of both inputs is a real number. -/
theorem real_of_pre (a0 a1 : FVec Ideal S8x16x6x256x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the shape of rank zero has exactly one index
  haveI : Subsingleton S_.Idx := ⟨fun a b => funext fun d => d.elim0⟩
  -- the precondition at its one index is a conjunction of two reductions by "and" over all axes
  have h0 := congrFun h ValueIdx.ix0
  dsimp only [Cert.Pre_finite_inputs.fn] at h0
  obtain ⟨h1, h2⟩ := IntOp.andi_eq_one.1 h0
  -- a reduction by "and" that came out 1 met a 1 at every index, and a 1 there says |a i| < +∞
  refine ⟨fun i => ?_, fun i => ?_⟩
  · exact real_of_cmp (a0 i) (Host.reduce_andi_all _ _ _ _ _ h1 i)
  · exact real_of_cmp (a1 i) (Host.reduce_andi_all _ _ _ _ _ h2 i)

end Cert.Finite

end
-- ==== Proof.Algebra.lean ====
/-
  The variance identity, at the extended reals.

  For real numbers u₀ … u₆₅₅₃₅ with sum S and sum of squares Q,
      Σₖ (uₖ − S/65536)² = Q − 2·(S/65536)·S + 65536·(S/65536)² = Q − S²/65536,
  so the centred form of the unbiased variance, Σₖ (uₖ − S/65536)² / (65536 − 1), is the sums form (Q − S²/65536) / 65535.
  For u = x + y: S = Σx + Σy and Q = Σx² + 2·Σxy + Σy². The extended reals are not a ring (no distributivity at the
  infinities), so the identity is proved over ℝ and carried across: every entry is a real number by hypothesis, sums
  and products of reals are reals, and a quotient by a nonzero real constant is the product with its reciprocal.
  The guard of the centred form, 65536 − 1 > 0, holds, so its selection keeps the quotient.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«157548_j82686710383027_1_alg».proof.Proof.Spec
import proofs.«157548_j82686710383027_1_alg».proof.Proof.LibColumn

noncomputable section

open scoped BigOperators

namespace Cert.VarAlg

open Idealize.ShloMosaic Idealize.ShloMosaic.ValueIdx Cert.VarSpec

/-! ## The constants -/

theorem c65536 : Ideal.ofBits .f32 0x47800000#32 = ((65536 : ℝ) : EReal) := by
  simp [Ideal.ofBits, Ideal.ieee, -EReal.coe_mul]; norm_num
theorem c65535 : Ideal.ofBits .f32 0x477FFF00#32 = ((65535 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c0 : Ideal.ofBits .f32 0x00000000#32 = ((0 : ℝ) : EReal) := by
  rw [Ideal.ofBits_zero_f32]; rfl

/-! ## Sums of reals -/

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Σ (uₖ − S/n)² = Q − S²/n for n = 65536, written with reciprocals as the quotients read. -/
theorem centred (f : Fin 65536 → ℝ) :
    (∑ k, (f k - (∑ j, f j) * (1 / 65536)) * (f k - (∑ j, f j) * (1 / 65536)))
      = (∑ k, f k * f k) - (∑ k, f k) * (∑ k, f k) * (1 / 65536) := by
  have h : ∀ k, (f k - (∑ j, f j) * (1 / 65536)) * (f k - (∑ j, f j) * (1 / 65536))
      = f k * f k - 2 * ((∑ j, f j) * (1 / 65536)) * f k
          + ((∑ j, f j) * (1 / 65536)) * ((∑ j, f j) * (1 / 65536)) := fun k => by ring
  simp only [h, Finset.sum_add_distrib, Finset.sum_sub_distrib, ← Finset.mul_sum, Finset.sum_const, Finset.card_univ,
    Fintype.card_fin, nsmul_eq_mul]
  push_cast
  ring

/-! ## One row -/

/-- The sums form of a row's variance, from its sum and its sum of squares. -/
def rowOfSums (s q : EReal) : EReal :=
  Ideal.div (q - Ideal.div (s * s) (Ideal.ofBits .f32 0x47800000#32)) (Ideal.ofBits .f32 0x477FFF00#32)

/-- The centred form of a row's variance, from the row's entries. -/
def rowCentred (u : Fin 65536 → EReal) : EReal :=
  Scalar.select
    (Ideal.cmp .ogt (Ideal.ofBits .f32 0x47800000#32 - (((1#32 : BitVec 32).toInt : ℝ) : EReal)) (Ideal.ofBits .f32 0x00000000#32))
    (Ideal.div
      (Ideal.ofBits .f32 0x00000000#32 +
        ∑ k, (u k - Ideal.div (Ideal.ofBits .f32 0x00000000#32 + ∑ j, u j) (Ideal.ofBits .f32 0x47800000#32))
          * (u k - Ideal.div (Ideal.ofBits .f32 0x00000000#32 + ∑ j, u j) (Ideal.ofBits .f32 0x47800000#32)))
      (Ideal.ofBits .f32 0x47800000#32 - (((1#32 : BitVec 32).toInt : ℝ) : EReal)))
    (Ideal.ofBits .f32 0x7FC00000#32)

theorem one_toInt : (((1#32 : BitVec 32).toInt : ℝ) : EReal) = ((1 : ℝ) : EReal) := by
  have : (1#32 : BitVec 32).toInt = 1 := by decide
  rw [this]; norm_num

/-- For a row of real numbers the two forms agree. -/
theorem rowCentred_eq (f : Fin 65536 → ℝ) :
    rowCentred (fun k => ((f k : ℝ) : EReal))
      = rowOfSums ((∑ k, f k : ℝ) : EReal) ((∑ k, f k * f k : ℝ) : EReal) := by
  unfold rowCentred rowOfSums
  rw [one_toInt, c65536, c65535, c0, ← EReal.coe_sub, show (65536 - 1 : ℝ) = 65535 by norm_num]
  have hg : Ideal.cmp .ogt ((65535 : ℝ) : EReal) ((0 : ℝ) : EReal) = 1#1 := by
    have hlt : ((0 : ℝ) : EReal) < ((65535 : ℝ) : EReal) := EReal.coe_lt_coe_iff.mpr (by norm_num)
    show BitVec.ofBool (decide (((0 : ℝ) : EReal) < ((65535 : ℝ) : EReal))) = 1#1
    rw [decide_eq_true hlt]; rfl
  rw [hg, select_one]
  rw [coe_sum, ← EReal.coe_add, Ideal.div_coe (by norm_num : (65536 : ℝ) ≠ 0), ← EReal.coe_mul]
  simp only [← EReal.coe_sub, ← EReal.coe_mul]
  rw [coe_sum, ← EReal.coe_add, Ideal.div_coe (by norm_num : (65535 : ℝ) ≠ 0), ← EReal.coe_mul]
  rw [Ideal.div_coe (by norm_num : (65536 : ℝ) ≠ 0), ← EReal.coe_mul, ← EReal.coe_sub,
    Ideal.div_coe (by norm_num : (65535 : ℝ) ≠ 0), ← EReal.coe_mul]
  rw [zero_add, zero_add, centred]

/-! ## The arrays -/

section Arrays

variable (hred : A2.ReducesTo [1] A1) (h0 : 0 < A0.numel)
  (hb1c : A1.BroadcastsInDim A1c (![0] : Fin 1 → Fin A1c.rank))
  (hb0c : A0.BroadcastsInDim A1c (![] : Fin 0 → Fin A1c.rank))
  (hbc2 : A1c.BroadcastsInDim A2 (![0, 1] : Fin 2 → Fin A2.rank))
  (hb : A0.BroadcastsInDim A1 (![] : Fin 0 → Fin A1.rank))

/-- The sums form at a row is the row's sums form. -/
theorem varOfSums_apply (s q : FVec Ideal A1 .f32) (j : A1.Idx) : varOfSums hb s q j = rowOfSums (s j) (q j) := rfl

/-- The sum of squares of x + y at a row: (Σx² + 2·Σxy) + Σy². -/
theorem sqOfSums_apply (sxx syy sxy : FVec Ideal A1 .f32) (j : A1.Idx) :
    sqOfSums hb sxx syy sxy j = (sxx j + Ideal.ofBits .f32 0x40000000#32 * sxy j) + syy j := rfl

/-- The centred form at row `r` is the row's centred form of the row's entries: the host sum along the row is the start
    value plus the entries' sum, the mean kept as a column reads back its row's entry, and spread over the row it reads
    that entry at every position. -/
theorem varCentred_apply (X : FVec Ideal A2 .f32) (r : Fin 768) :
    varCentred hred h0 hb1c hb0c hbc2 hb X (ix1 r) = rowCentred (fun k => X (ix2 r k)) := by
  have hR : A2.Reduces [1] A1 := by decide
  have hsum : ∀ (x : A2.Idx → EReal) (init : EReal),
      Ideal.hostReduceAdd hred x init (ix1 r) = init + ∑ k : Fin 65536, x (ix2 r k) := fun x init =>
    (Ideal.hostReduceAdd_single hred hR x init (ix1 r)).trans
      (congrArg (init + ·) (Finset.sum_congr rfl fun k _ => congrArg x (Cert.LibColumn.lift_last_ix1 hR r k)))
  have hspread : ∀ (v : A1c.Idx → EReal) (k : Fin 65536),
      broadcastInDim A2 ![0, 1] hbc2 v (ix2 r k) = v (ix2 r (0 : Fin 1)) := fun v k =>
    broadcastInDim_apply _ hbc2 v (ix2 r k) (ix2 r (0 : Fin 1)) fun a => by
      match a with
      | ⟨0, _⟩ => rfl
      | ⟨1, _⟩ => rfl
  have hcol : ∀ (s : A1.Idx → EReal), broadcastInDim A1c ![0] hb1c s (ix2 r (0 : Fin 1)) = s (ix1 r) := fun s =>
    broadcastInDim_apply _ hb1c s (ix2 r (0 : Fin 1)) (ix1 r) fun a => by
      match a with
      | ⟨0, _⟩ => rfl
  have hmean : ∀ k : Fin 65536, broadcastInDim A2 ![0, 1] hbc2
        (Host.divf (broadcastInDim A1c ![0] hb1c (Host.reduceAdd X (constant (F := Ideal) A0 .f32 0x00000000#32) hred h0))
          (broadcastInDim A1c ![] hb0c (constant (F := Ideal) A0 .f32 0x47800000#32))) (ix2 r k)
      = Ideal.div (Ideal.ofBits .f32 0x00000000#32 + ∑ j : Fin 65536, X (ix2 r j)) (Ideal.ofBits .f32 0x47800000#32) := fun k => by
    rw [hspread]
    show Ideal.div (broadcastInDim A1c ![0] hb1c
      (Host.reduceAdd X (constant (F := Ideal) A0 .f32 0x00000000#32) hred h0) (ix2 r (0 : Fin 1))) _ = _
    rw [hcol]
    show Ideal.div (Ideal.hostReduceAdd hred X (Ideal.ofBits .f32 0x00000000#32) (ix1 r)) _ = _
    rw [hsum]
    rfl
  unfold varCentred rowCentred
  show Scalar.select _ (Ideal.div (Ideal.hostReduceAdd hred _ (Ideal.ofBits .f32 0x00000000#32) (ix1 r)) _) _ = _
  rw [hsum]
  simp only [mulf_apply, subf_apply, hmean]
  rfl

/-- For an array of real numbers the sums form, fed the rows' sums and sums of squares, is the centred form. -/
theorem var_of_sums (X : FVec Ideal A2 .f32) (hX : ∀ i, ∃ t : ℝ, X i = (t : EReal)) (s q : FVec Ideal A1 .f32)
    (hs : ∀ r, s (ix1 r) = rowSum X r) (hq : ∀ r, q (ix1 r) = rowSum (fun i => X i * X i) r) :
    varOfSums hb s q = varCentred hred h0 hb1c hb0c hbc2 hb X := by
  funext j
  obtain ⟨r, rfl⟩ : ∃ r : Fin 768, j = ix1 r := ⟨j 0, eq_ix1 j⟩
  choose f hf using hX
  rw [varCentred_apply, varOfSums_apply, hs, hq]
  rw [show (fun k => X (ix2 r k)) = fun k => ((f (ix2 r k) : ℝ) : EReal) from funext fun k => hf _, rowCentred_eq]
  unfold rowSum
  simp only [hf, ← EReal.coe_mul, coe_sum]

/-- The same for x + y, whose sum is Σx + Σy and whose sum of squares is (Σx² + 2·Σxy) + Σy². -/
theorem var_of_sums_add (X Y : FVec Ideal A2 .f32) (hX : ∀ i, ∃ t : ℝ, X i = (t : EReal))
    (hY : ∀ i, ∃ t : ℝ, Y i = (t : EReal)) (sx sy sxx syy sxy : FVec Ideal A1 .f32)
    (hsx : ∀ r, sx (ix1 r) = rowSum X r) (hsy : ∀ r, sy (ix1 r) = rowSum Y r)
    (hsxx : ∀ r, sxx (ix1 r) = rowSum (fun i => X i * X i) r) (hsyy : ∀ r, syy (ix1 r) = rowSum (fun i => Y i * Y i) r)
    (hsxy : ∀ r, sxy (ix1 r) = rowSum (fun i => X i * Y i) r) :
    varOfSums hb (addf sx sy) (sqOfSums hb sxx syy sxy) = varCentred hred h0 hb1c hb0c hbc2 hb (addf X Y) := by
  funext j
  obtain ⟨r, rfl⟩ : ∃ r : Fin 768, j = ix1 r := ⟨j 0, eq_ix1 j⟩
  choose f hf using hX
  choose g hg using hY
  rw [varCentred_apply, varOfSums_apply, sqOfSums_apply, addf_apply, hsx, hsy, hsxx, hsyy, hsxy, c2]
  rw [show (fun k => addf X Y (ix2 r k)) = fun k => ((f (ix2 r k) + g (ix2 r k) : ℝ) : EReal) from
    funext fun k => by rw [addf_apply, hf, hg, EReal.coe_add], rowCentred_eq]
  unfold rowSum
  simp only [hf, hg, ← EReal.coe_mul, coe_sum, ← EReal.coe_add]
  have e1 : (∑ k : Fin 65536, f (ix2 r k)) + ∑ k : Fin 65536, g (ix2 r k)
      = ∑ k : Fin 65536, (f (ix2 r k) + g (ix2 r k)) := Finset.sum_add_distrib.symm
  have e2 : ((∑ k : Fin 65536, f (ix2 r k) * f (ix2 r k)) + 2 * ∑ k : Fin 65536, f (ix2 r k) * g (ix2 r k))
        + ∑ k : Fin 65536, g (ix2 r k) * g (ix2 r k)
      = ∑ k : Fin 65536, (f (ix2 r k) + g (ix2 r k)) * (f (ix2 r k) + g (ix2 r k)) := by
    rw [Finset.mul_sum, ← Finset.sum_add_distrib, ← Finset.sum_add_distrib]
    exact Finset.sum_congr rfl fun k _ => by ring
  rw [e1, e2]

end Arrays

end Cert.VarAlg

end
-- ==== Proof.Bridge.lean ====
/-
  The two results are one number. Both programs flatten the inputs the same way; under the precondition every entry is
  real; lane 0 of each of the kernel's five arrays is a row sum, so its three variances from sums are the reference's
  three centred variances (the variance identity), and the closing expression is shared.
-/
import proofs.«157548_j82686710383027_1_alg».proof.Proof.KTail
import proofs.«157548_j82686710383027_1_alg».proof.Proof.RefRun
import proofs.«157548_j82686710383027_1_alg».proof.Proof.Finite
import proofs.«157548_j82686710383027_1_alg».proof.Proof.Algebra

noncomputable section

namespace Cert.Bridge

open Idealize.ShloMosaic Idealize.ShloMosaic.TcCoe Idealize.SL.Sem Idealize.ShloMosaic.ValueIdx
open Cert.VarSpec Cert.VarAlg
open Cert.KernelIdeal.KVal (col kval kres)

/-- Lane 0 of row `r` of the lanes array is row `r`'s sum: dropping the unit axis keeps the position, and the slice
    starts at lane 0. -/
theorem col_lanes (u : A2.Idx → EReal) (r : Fin 768) : col (lanes u) (ix1 r) = rowSum u r := by
  unfold col
  refine (shapeCast_apply _ _ (ix1 r) (ix2 r (0 : Fin 1)) (by
    rw [Shape.rowMajor_val_two, Shape.rowMajor_val_one]
    show r.val * 1 + 0 = r.val
    omega)).trans ?_
  refine (extractStridedSlice_apply _ _ _ (ix2 r (0 : Fin 1)) (ix2 r (0 : Fin 128)) fun a => by
    match a with
    | ⟨0, _⟩ => show r.val = 0 + r.val; omega
    | ⟨1, _⟩ => rfl).trans ?_
  rfl

/-- A flattened array of real numbers is an array of real numbers: flattening moves no entry. -/
theorem real_flat {s t : Shape} (a : s.Idx → EReal) (h : s.ShapeCasts t) (ha : ∀ i, ∃ v : ℝ, a i = (v : EReal))
    (j : t.Idx) : ∃ v : ℝ, shapeCast t a h j = (v : EReal) := by
  unfold shapeCast
  exact ha _

/-- The kernel's result from the flattened inputs is the closing expression of the three centred variances. -/
theorem kres_eq (hred : A2.ReducesTo [1] A1) (h0 : 0 < A0.numel)
    (hb1c : A1.BroadcastsInDim A1c (![0] : Fin 1 → Fin A1c.rank))
    (hb0c : A0.BroadcastsInDim A1c (![] : Fin 0 → Fin A1c.rank))
    (hbc2 : A1c.BroadcastsInDim A2 (![0, 1] : Fin 2 → Fin A2.rank))
    (hb : A0.BroadcastsInDim A1 (![] : Fin 0 → Fin A1.rank)) (hr : A1.ReducesTo [0] A0)
    (X Y : FVec Ideal A2 .f32) (hX : ∀ i, ∃ v : ℝ, X i = (v : EReal)) (hY : ∀ i, ∃ v : ℝ, Y i = (v : EReal)) :
    kres X Y = tail hb hr h0 (varCentred hred h0 hb1c hb0c hbc2 hb X) (varCentred hred h0 hb1c hb0c hbc2 hb Y)
      (varCentred hred h0 hb1c hb0c hbc2 hb (addf X Y)) := by
  rw [← var_of_sums hred h0 hb1c hb0c hbc2 hb X hX (col (lanes X)) (col (lanes fun i => X i * X i))
        (col_lanes X) (col_lanes _),
    ← var_of_sums hred h0 hb1c hb0c hbc2 hb Y hY (col (lanes Y)) (col (lanes fun i => Y i * Y i))
        (col_lanes Y) (col_lanes _),
    ← var_of_sums_add hred h0 hb1c hb0c hbc2 hb X Y hX hY (col (lanes X)) (col (lanes Y))
        (col (lanes fun i => X i * X i)) (col (lanes fun i => Y i * Y i)) (col (lanes fun i => X i * Y i))
        (col_lanes X) (col_lanes Y) (col_lanes _) (col_lanes _) (col_lanes _)]
  rfl

end Cert.Bridge

end
-- ==== Proof.lean ====
/-
  A correlation-style loss over 768 bands: each input is flattened to 768 rows of 65536 pixels, and the result is the
  mean over the rows of 1 − ½·(Var(x+y) − Var(x) − Var(y)) / √|Var(x)·Var(y)|, every variance unbiased (divisor 65535).

  The kernel streams sixteen rows per grid point and leaves five row sums — Σx, Σx², Σy, Σy², Σxy — in the lanes of five
  [768, 128] arrays; the host lines after it take lane 0 and form each variance as (Σu² − (Σu)²/65536)/65535, with
  Σ(x+y) = Σx + Σy and Σ(x+y)² = Σx² + 2Σxy + Σy². The reference centres each row at its mean, sums the squares and
  divides by 65536 − 1. Over the reals these are one number: Σ(u − Σu/n)² = Σu² − (Σu)²/n. The identity needs
  distributivity, which fails at the infinities of the extended reals, so the precondition — every input entry finite —
  is used: it makes every entry, every row sum and every variance a real number. From the three variances on the two
  programs apply the same closing expression, which is never opened.

  The three frames: the kernel's two are the generated class-A frame certificates; the reference, a host program with no
  kernel, runs as one straight line of host operations. No rewrite was applied in printing the idealized kernel, so
  there is nothing to preserve.
-/
import proofs.«157548_j82686710383027_1_alg».proof.Defs
import proofs.«157548_j82686710383027_1_alg».proof.Proof.Gen.Kernel
import proofs.«157548_j82686710383027_1_alg».proof.Proof.Gen.Kernel.Frame
import proofs.«157548_j82686710383027_1_alg».proof.Proof.Gen.KernelIdeal
import proofs.«157548_j82686710383027_1_alg».proof.Proof.Gen.KernelIdeal.Frame
import proofs.«157548_j82686710383027_1_alg».proof.Proof.Gen.ReferenceIdeal
import proofs.«157548_j82686710383027_1_alg».proof.Proof.Gen.Pre_finite_inputs
import proofs.«157548_j82686710383027_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both runs end at the closing expression of the three centred variances of the flattened inputs: the reference by
    its run, the kernel by its run and the variance identity on real entries. -/
theorem algebraic : Cert.algebraic_KernelIdeal_ReferenceIdeal := by
  intro m ρ m' ρ' hpre hagree
  refine ⟨fun c => Cert.KernelIdeal.KVal.kres (Cert.KernelIdeal.KVal.xarr m c) (Cert.KernelIdeal.KVal.yarr m c),
    Cert.KernelIdeal.KVal.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  obtain ⟨hx, hy⟩ := Cert.Finite.real_of_pre _ _ (hpre c)
  show _ = Cert.KernelIdeal.KVal.kres (Cert.KernelIdeal.KVal.xarr m c) (Cert.KernelIdeal.KVal.yarr m c)
  rw [Cert.KernelIdeal.KVal.xarr_eq, Cert.KernelIdeal.KVal.yarr_eq]
  exact (Cert.Bridge.kres_eq Cert.ReferenceIdeal.Gen.reducesTo_S768x65536_S768_d1 Cert.ReferenceIdeal.Gen.h_S_
    Cert.ReferenceIdeal.Gen.bcast_S768_S768x1_0 Cert.ReferenceIdeal.Gen.bcast_S_S768x1
    Cert.ReferenceIdeal.Gen.bcast_S768x1_S768x65536_0_1 Cert.ReferenceIdeal.Gen.bcast_S_S768
    Cert.ReferenceIdeal.Gen.reducesTo_S768_S_d0 _ _
    (Cert.Bridge.real_flat _ _ hx) (Cert.Bridge.real_flat _ _ hy)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
